-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S128x8x128 : Shape := ⟨3, ![128, 8, 128]⟩
abbrev S32x256 : Shape := ⟨2, ![32, 256]⟩
abbrev S1x8x128 : Shape := ⟨3, ![1, 8, 128]⟩
abbrev S32 : Shape := ⟨1, ![32]⟩
abbrev S32x1 : Shape := ⟨2, ![32, 1]⟩
abbrev S32x256x1 : Shape := ⟨3, ![32, 256, 1]⟩
abbrev S32x1x256 : Shape := ⟨3, ![32, 1, 256]⟩
abbrev S32x256x256 : Shape := ⟨3, ![32, 256, 256]⟩
abbrev S1 : Shape := ⟨1, ![1]⟩
abbrev S1x1 : Shape := ⟨2, ![1, 1]⟩
abbrev S1x1x1 : Shape := ⟨3, ![1, 1, 1]⟩
abbrev S128x1x1 : Shape := ⟨3, ![128, 1, 1]⟩
abbrev S128 : Shape := ⟨1, ![128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S128x8x128, .f32⟩
  | .hbm, ⟨3, _⟩ => ⟨S128x1x1, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S1x8x128, .f32⟩
  | .local _ .vmem, ⟨5, _⟩ => ⟨S1x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x256_S32x256_0_0 : ∀ a, (![0, 0] : Fin 2 → Nat) a + S32x256.size a ≤ S32x256.size a
  h_S32x256 : 0 < S32x256.numel
  reduces_S32x256_S32 : S32x256.Reduces [1] S32
  shapeCasts_S32_S32x1 : S32.ShapeCasts S32x1
  broadcasts_S32x1_S32x256 : S32x1.Broadcasts S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S32x256 : S32x256x256.Reduces [2] S32x256
  reduces_S32x1_S1 : S32x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S128x8x128_S128x1x1_0_0_0 : S128x8x128.Slices ![0, 0, 0] S128x1x1
  shapeCasts_S128x1x1_S128 : S128x1x1.ShapeCasts S128
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S4096x256.size a
  hwx0_1 : ∀ i : grid0.Coords, EltTy.bits .f32 = 32 ∨ (Rect.block (s := S4096x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S128x8x128.size a
  hwx0_2 : ∀ i : grid0.Coords, EltTy.bits .f32 = 32 ∨ (Rect.block (s := S128x8x128) S1x8x128.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4096x256x1 : Shape := ⟨3, ![4096, 256, 1]⟩
abbrev S4096x1x256 : Shape := ⟨3, ![4096, 1, 256]⟩
abbrev S4096x256x256 : Shape := ⟨3, ![4096, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x256x1, .f32⟩
  | .hbm, ⟨61, _⟩ => ⟨S4096x1x256, .f32⟩
  | .hbm, ⟨62, _⟩ => ⟨S4096x256x256, .f32⟩
  | .hbm, ⟨63, _⟩ => ⟨S4096x256x256, .f32⟩
  | .hbm, ⟨64, _⟩ => ⟨S4096x256x256, .f32⟩
  | .hbm, ⟨65, _⟩ => ⟨S_, .f32⟩
  | .hbm, ⟨66, _⟩ => ⟨S4096x256x256, .f32⟩
  | .hbm, ⟨67, _⟩ => ⟨S4096x256x256, .f32⟩
  | .hbm, ⟨68, _⟩ => ⟨S4096x256x256, .f32⟩
  | .hbm, ⟨69, _⟩ => ⟨S4096x256x256, .f32⟩
  | .hbm, ⟨70, _⟩ => ⟨S_, .f32⟩
  | .hbm, ⟨71, _⟩ => ⟨S4096x256x256, .f32⟩
  | .hbm, ⟨72, _⟩ => ⟨S4096x256x256, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_16 : Ref sig .tc := ⟨.hbm, 70, rfl⟩
abbrev main_v51 : Ref sig .tc := ⟨.hbm, 71, rfl⟩
abbrev main_v52 : Ref sig .tc := ⟨.hbm, 72, rfl⟩
abbrev main_cst_17 : Ref sig .tc := ⟨.hbm, 73, rfl⟩
abbrev main_v53 : Ref sig .tc := ⟨.hbm, 74, rfl⟩
abbrev main_cst_18 : Ref sig .tc := ⟨.hbm, 75, rfl⟩
abbrev main_v54 : Ref sig .tc := ⟨.hbm, 76, rfl⟩
abbrev main_cst_19 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  reducesTo_S4096_S_d0 : S4096.ReducesTo [0] S_
  bcast_S4096x256_S4096x256x1_0_1 : S4096x256.BroadcastsInDim S4096x256x1 (![0, 1] : Fin 2 → Fin S4096x256x1.rank)
  bcast_S4096x256_S4096x1x256_0_2 : S4096x256.BroadcastsInDim S4096x1x256 (![0, 2] : Fin 2 → Fin S4096x1x256.rank)
  bcast_S4096x256x1_S4096x256x256_0_1_2 : S4096x256x1.BroadcastsInDim S4096x256x256 (![0, 1, 2] : Fin 3 → Fin S4096x256x256.rank)
  bcast_S4096x1x256_S4096x256x256_0_1_2 : S4096x1x256.BroadcastsInDim S4096x256x256 (![0, 1, 2] : Fin 3 → Fin S4096x256x256.rank)
  bcast_S_S4096x256x256 : S_.BroadcastsInDim S4096x256x256 (![] : Fin 0 → Fin S4096x256x256.rank)
  reducesTo_S4096x256x256_S4096_d1_2 : S4096x256x256.ReducesTo [1, 2] S4096

variable [Facts₀]

class Facts : Prop extends Facts₀ where

variable [Facts]
-- ==== Proof.Entropy.lean ====
/-
  The mathematics of the certificate, with no program in sight. A row of logits is a function
  `f : Fin n → EReal`. Its softmax subtracts the row's maximum, exponentiates and divides by the row's
  sum of exponentials; the entropy term of a probability `p` is `p · log (p + ε)`. When every logit is
  a real number, every one of these quantities is a real number as well: the maximum of finitely many
  reals is real, an exponential is positive, so the normalising sum is positive and the quotient is a
  nonnegative real, and `p + ε` is positive, so its logarithm is real. That is what lets the two programs'
  results be compared: on real numbers multiplication distributes over finite sums and over differences,
  which it does not at the infinities of the extended reals.

  The identity proved at the end: with `a r j`, `b r j` the rows' entropy terms, `c r i j` the terms of
  the rows' outer product, `λ` the scale and `d` the row count, both as real constants,

    (Σ_tiles Σ_{r in tile} λ · ((Σ_i Σ_j c r i j − Σ_j a r j) − Σ_j b r j)) / d
      = ((Σ_r −Σ_j (a r j · λ)) / d + (Σ_r −Σ_j (b r j · λ)) / d) − −((Σ_r Σ_i Σ_j (c r i j · λ)) / d),

  the 4096 rows being 128 tiles of 32.
-/
import Idealize.ShloMosaic.PureOps.Ideal
import Idealize.ShloMosaic.PureOps.Ideal.Laws
import Idealize.ShloMosaic.Lib.ValueIdx

noncomputable section

open Idealize.ShloMosaic
open scoped BigOperators

namespace Cert.Gmi

/-! ## Extended reals that are real numbers -/

/-- `x` is (the image of) a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, taken in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

/-! ## The constants -/

/-- The entropy's guard `ε`, the f32 nearest `1e-7`. -/
def eps : EReal := Ideal.ofBits .f32 0x33D6BF95#32
/-- The scale `λ`, the f32 nearest `1 / ln 2`. -/
def lam : EReal := Ideal.ofBits .f32 0x3FB8AA3B#32
/-- The row count `4096` as an f32. -/
def cnt : EReal := Ideal.ofBits .f32 0x45800000#32

theorem eps_pos : ∃ e : ℝ, 0 < e ∧ eps = (e : EReal) := by
  refine ⟨_, ?_, by unfold eps; simp [Ideal.ofBits, Ideal.ieee, -EReal.coe_mul]; rfl⟩
  positivity

theorem lam_real : ∃ l : ℝ, lam = (l : EReal) :=
  ⟨_, by unfold lam; simp [Ideal.ofBits, Ideal.ieee, -EReal.coe_mul]; rfl⟩

theorem cnt_real : ∃ d : ℝ, d ≠ 0 ∧ cnt = (d : EReal) :=
  ⟨4096, by norm_num, by unfold cnt; simp [Ideal.ofBits, Ideal.ieee, -EReal.coe_mul]; norm_num⟩

/-- The pattern of `-∞` is the bottom of the extended reals. -/
theorem negInf_eq : Ideal.ofBits .f32 0xFF800000#32 = ⊥ := by
  simp [Ideal.ofBits, Ideal.ieee]

/-! ## A row's maximum, softmax and entropy terms -/

variable {n : ℕ}

/-- The row's maximum, as the fold of `max` from `-∞`. -/
def rmax (f : Fin n → EReal) : EReal := (Finset.univ : Finset (Fin n)).fold max ⊥ f

/-- The exponential of a logit less the row's maximum. -/
def expd (f : Fin n → EReal) (j : Fin n) : EReal := Ideal.exp (f j - rmax f)

/-- The row's softmax. -/
def sm (f : Fin n → EReal) (j : Fin n) : EReal := Ideal.div (expd f j) (∑ k, expd f k)

/-- The entropy term of a probability. -/
def plogp (p : EReal) : EReal := p * Ideal.log (p + eps)

theorem fold_max_cases {ι : Type*} [DecidableEq ι] (f : ι → EReal) (hf : ∀ j, IsReal (f j)) (s : Finset ι) :
    (s = ∅ ∧ s.fold max ⊥ f = ⊥) ∨ IsReal (s.fold max ⊥ f) := by
  induction s using Finset.induction_on with
  | empty => exact Or.inl ⟨rfl, Finset.fold_empty⟩
  | insert a s ha ih =>
    right
    rw [Finset.fold_insert ha]
    obtain ⟨x, hx⟩ := hf a
    rcases ih with ⟨_, h⟩ | ⟨y, hy⟩
    · rw [h, hx]; exact ⟨x, max_eq_left bot_le⟩
    · rw [hy, hx]; exact ⟨max x y, coe_max x y⟩

/-- The maximum of a nonempty row of reals is a real. -/
theorem rmax_real (hn : 0 < n) (f : Fin n → EReal) (hf : ∀ j, IsReal (f j)) : IsReal (rmax f) := by
  rcases fold_max_cases f hf Finset.univ with ⟨h, _⟩ | h
  · exact absurd h (Finset.univ_nonempty_iff.2 ⟨⟨0, hn⟩⟩).ne_empty
  · exact h

/-- Each exponential is a positive real. -/
theorem expd_pos (hn : 0 < n) (f : Fin n → EReal) (hf : ∀ j, IsReal (f j)) (j : Fin n) :
    ∃ r : ℝ, 0 < r ∧ expd f j = (r : EReal) := by
  obtain ⟨x, hx⟩ := hf j
  obtain ⟨m, hm⟩ := rmax_real hn f hf
  refine ⟨Real.exp (x - m), Real.exp_pos _, ?_⟩
  unfold expd
  rw [hx, hm, ← EReal.coe_sub, Ideal.exp_coe]

/-- The softmax of a nonempty row of reals is a nonnegative real at every entry. -/
theorem sm_nonneg (hn : 0 < n) (f : Fin n → EReal) (hf : ∀ j, IsReal (f j)) (j : Fin n) :
    ∃ r : ℝ, 0 ≤ r ∧ sm f j = (r : EReal) := by
  choose e he0 he using expd_pos hn f hf
  have hs : (0 : ℝ) < ∑ k, e k := Finset.sum_pos (fun k _ => he0 k) (Finset.univ_nonempty_iff.2 ⟨⟨0, hn⟩⟩)
  refine ⟨e j * (1 / ∑ k, e k), mul_nonneg (he0 j).le (by positivity), ?_⟩
  unfold sm
  simp only [he]
  rw [sum_coe, Ideal.div_coe hs.ne', ← EReal.coe_mul]

/-- The entropy term of a nonnegative real is a real. -/
theorem plogp_real {r : ℝ} (hr : 0 ≤ r) : IsReal (plogp (r : EReal)) := by
  obtain ⟨e, he0, he⟩ := eps_pos
  refine ⟨r * Real.log (r + e), ?_⟩
  unfold plogp
  rw [he, ← EReal.coe_add, Ideal.log_coe, if_neg (by linarith), ← EReal.coe_mul]

/-- A row's entropy terms are reals. -/
theorem plogp_sm_real (hn : 0 < n) (f : Fin n → EReal) (hf : ∀ j, IsReal (f j)) (j : Fin n) :
    IsReal (plogp (sm f j)) := by
  obtain ⟨r, hr, h⟩ := sm_nonneg hn f hf j
  rw [h]; exact plogp_real hr

/-- So are the terms of two rows' outer product. -/
theorem plogp_outer_real (hn : 0 < n) (f g : Fin n → EReal) (hf : ∀ j, IsReal (f j)) (hg : ∀ j, IsReal (g j))
    (i j : Fin n) : IsReal (plogp (sm f i * sm g j)) := by
  obtain ⟨r, hr, h⟩ := sm_nonneg hn f hf i
  obtain ⟨q, hq, h'⟩ := sm_nonneg hn g hg j
  rw [h, h', ← EReal.coe_mul]; exact plogp_real (mul_nonneg hr hq)

/-! ## The 4096 rows as 128 tiles of 32 -/

/-- Row `r` of tile `t`. -/
def row (t : Fin 128) (r : Fin 32) : Fin 4096 := ⟨t.val * 32 + r.val, by omega⟩

/-- A sum over the tiles of the sums over their rows is the sum over all rows. -/
theorem sum_rows {M : Type*} [AddCommMonoid M] (g : Fin 4096 → M) :
    ∑ t : Fin 128, ∑ r : Fin 32, g (row t r) = ∑ r, g r := by
  rw [← Equiv.sum_comp (finProdFinEquiv (m := 128) (n := 32)) g, Fintype.sum_prod_type]
  refine Finset.sum_congr rfl fun t _ => Finset.sum_congr rfl fun r _ => congrArg g (Fin.ext ?_)
  show t.val * 32 + r.val = r.val + 32 * t.val
  omega

/-! ## The two arrangements of the sum agree -/

/-- On the reals: the scale and the division by the count distribute over the sums. -/
theorem real_identity (A B : Fin 4096 → Fin 256 → ℝ) (C : Fin 4096 → Fin 256 → Fin 256 → ℝ) (l d : ℝ) :
    (∑ t : Fin 128, ∑ r : Fin 32,
        l * (((∑ i, ∑ j, C (row t r) i j) - ∑ j, A (row t r) j) - ∑ j, B (row t r) j)) * (1 / d)
      = ((∑ r, -(∑ j, A r j * l)) * (1 / d) + (∑ r, -(∑ j, B r j * l)) * (1 / d))
        - -((∑ r, ∑ i, ∑ j, C r i j * l) * (1 / d)) := by
  rw [sum_rows (fun r => l * (((∑ i, ∑ j, C r i j) - ∑ j, A r j) - ∑ j, B r j))]
  simp only [← Finset.sum_mul, Finset.sum_neg_distrib, ← Finset.mul_sum, Finset.sum_sub_distrib]
  ring

/-- On extended reals that are real: the kernel's arrangement of the sum is the reference's. -/
theorem combine (a b : Fin 4096 → Fin 256 → EReal) (c : Fin 4096 → Fin 256 → Fin 256 → EReal)
    (ha : ∀ r j, IsReal (a r j)) (hb : ∀ r j, IsReal (b r j)) (hc : ∀ r i j, IsReal (c r i j)) :
    Ideal.div (∑ t : Fin 128, ∑ r : Fin 32,
        lam * (((∑ i, ∑ j, c (row t r) i j) - ∑ j, a (row t r) j) - ∑ j, b (row t r) j)) cnt
      = (Ideal.div (∑ r, -(∑ j, a r j * lam)) cnt + Ideal.div (∑ r, -(∑ j, b r j * lam)) cnt)
        - -(Ideal.div (∑ r, ∑ i, ∑ j, c r i j * lam) cnt) := by
  choose A hA using ha
  choose B hB using hb
  choose C hC using hc
  obtain ⟨l, hl⟩ := lam_real
  obtain ⟨d, hd0, hd⟩ := cnt_real
  simp only [hA, hB, hC, hl, hd, Ideal.div_coe hd0, ← EReal.coe_mul, ← EReal.coe_sub, ← EReal.coe_neg,
    ← EReal.coe_add, sum_coe]
  exact congrArg _ (real_identity A B C l d)

/-! ## The two programs' results, as functions of the two arrays -/

/-- A [4096, 256] array of extended reals. -/
abbrev Logits : Type := (⟨2, ![4096, 256]⟩ : Shape).Idx → EReal

/-- Row `r` of an array. -/
def rowOf (x : Logits) (r : Fin 4096) : Fin 256 → EReal := fun j => x (ValueIdx.ix2 r j)

/-- What one tile of 32 rows contributes in the kernel's arrangement: per row, the scale times the outer product's
    entropy sum less the two rows' own. -/
def tileSum (x y : Logits) (t : Fin 128) : EReal :=
  ∑ r : Fin 32, lam * (((∑ i, ∑ j, plogp (sm (rowOf x (row t r)) i * sm (rowOf y (row t r)) j))
    - ∑ j, plogp (sm (rowOf x (row t r)) j)) - ∑ j, plogp (sm (rowOf y (row t r)) j))

/-- The kernel's arrangement: the tiles' sums, added up and divided by the row count. -/
def kernelForm (x y : Logits) : EReal := Ideal.div (∑ t, tileSum x y t) cnt

/-- The reference's arrangement: the mean of each array's negated scaled row entropies, added, less the negated mean
    of the outer products' scaled entropy sums. -/
def referenceForm (x y : Logits) : EReal :=
  (Ideal.div (∑ r, -(∑ j, plogp (sm (rowOf x r) j) * lam)) cnt
      + Ideal.div (∑ r, -(∑ j, plogp (sm (rowOf y r) j) * lam)) cnt)
    - -(Ideal.div (∑ r, ∑ i, ∑ j, plogp (sm (rowOf x r) i * sm (rowOf y r) j) * lam) cnt)

/-- On arrays of reals the two arrangements are one number. -/
theorem kernelForm_eq_referenceForm (x y : Logits) (hx : ∀ i, IsReal (x i)) (hy : ∀ i, IsReal (y i)) :
    kernelForm x y = referenceForm x y :=
  combine (fun r j => plogp (sm (rowOf x r) j)) (fun r j => plogp (sm (rowOf y r) j))
    (fun r i j => plogp (sm (rowOf x r) i * sm (rowOf y r) j))
    (fun r j => plogp_sm_real (by norm_num) _ (fun k => hx _) j)
    (fun r j => plogp_sm_real (by norm_num) _ (fun k => hy _) j)
    (fun r i j => plogp_outer_real (by norm_num) _ _ (fun k => hx _) (fun k => hy _) i j)

end Cert.Gmi

end
-- ==== Proof.Finite.lean ====
/-
  What the precondition says: the predicate compares the absolute value of every entry of both arrays with `+∞`
  and takes the conjunction of all the comparisons. An extended real whose absolute value is below `+∞` is neither
  infinity, so it is a real number: under the precondition every entry of both arrays is real.
-/
import proofs.«413792_j38972533244659_3_alg».proof.Pre_finite_inputs
import proofs.«413792_j38972533244659_3_alg».proof.Proof.Entropy
import Idealize.ShloMosaic.Lib.ReduceAll
import Idealize.ShloMosaic.Lib.ValueIdx

noncomputable section

namespace Cert.Gmi

open Idealize.ShloMosaic Idealize.ShloMosaic.ValueIdx

/-- An extended real whose absolute value compares below `+∞` is a real number. -/
theorem isReal_of_abs_lt_inf (z : EReal)
    (h : Ideal.cmp .olt (max z (-z)) (Ideal.ofBits .f32 0x7F800000#32) = 1#1) : IsReal z := by
  have htop : Ideal.ofBits .f32 0x7F800000#32 = ⊤ := by simp [Ideal.ofBits, Ideal.ieee]
  rw [htop] at h
  induction z using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- Under the precondition both arrays hold real numbers only. -/
theorem real_of_pre [Cert.Pre_finite_inputs.Facts] (x y : Logits)
    (h : Cert.Pre_finite_inputs.fn (F := Ideal) x y = fun _ => 1#1) :
    (∀ i, IsReal (x i)) ∧ (∀ i, IsReal (y i)) := by
  have h0 := congrFun h ix0
  dsimp only [Cert.Pre_finite_inputs.fn] at h0
  obtain ⟨hx, hy⟩ := IntOp.andi_eq_one.1 h0
  exact ⟨fun i => isReal_of_abs_lt_inf _ (Host.reduce_andi_all _ _ _ _ _ hx i),
    fun i => isReal_of_abs_lt_inf _ (Host.reduce_andi_all _ _ _ _ _ hy i)⟩

end Cert.Gmi

end
-- ==== Proof.LibKeepdims.lean ====
/-
  General lemmas for reductions that keep their axis (`sum(axis, keepdims=True)`, `max(axis, keepdims=True)`) and
  for the outer product of two rows, each read at one element, at the ideal float values:

  * a reduction of an [a, b] vector over its second axis, at row `r`: the sum, or the fold of `max` from `-∞`, over
    the row's entries (`rowSum_apply`, `rowMax_apply`); of an [a, b, c] vector over its last axis, at (r, i)
    (`lastSum_apply`); of an [a, 1] vector over its first axis (`colSum_apply`);
  * the column cast [a] → [a, 1] read at (r, 0) (`col_apply`), and followed by the broadcast to [a, b] read at
    (r, k) (`keepdims_apply`): both are the vector at `r`;
  * the casts [a, b] → [a, b, 1] and [a, b] → [a, 1, c] followed by the broadcasts to [a, b, c], read at (r, i, j):
    the operand at (r, i) and at (r, j) (`outerLeft_apply`, `outerRight_apply`);
  * a chain of casts between one-element shapes followed by a broadcast reads the one element (`splat_one_apply`);
  * on the host side: a sum over a rank-1 index set as a sum over its coordinate (`sum_idx1`), and the sum over the
    indices of an [a, b, c] array that drop to row `r` when the last two axes are reduced as the double sum over
    those axes (`sum_filter_drop_last_two`); the host's row maximum from `-∞` (`hostRowMax_apply`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Keepdims

open Idealize.ShloMosaic Idealize.ShloMosaic.ValueIdx

variable {α : Type}

/-! ## Layout -/

/-- The column cast [a] → [a, 1], read at (r, 0), is the vector at `r`. -/
theorem col_apply {a : ℕ} (v : (⟨1, ![a]⟩ : Shape).Idx → α) (h1 : (⟨1, ![a]⟩ : Shape).ShapeCasts ⟨2, ![a, 1]⟩)
    (r : Fin a) (z : Fin 1) : shapeCast ⟨2, ![a, 1]⟩ v h1 (ix2 r z) = v (ix1 r) := by
  refine shapeCast_apply v h1 _ (ix1 r) ?_
  rw [Shape.rowMajor_val_one, Shape.rowMajor_val_two]
  show r.val = r.val * 1 + z.val
  omega

/-- The column cast followed by the broadcast along the new axis, read at (r, k), is the vector at `r`. -/
theorem keepdims_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (k : Fin b) :
    broadcastTo ⟨2, ![a, b]⟩ (shapeCast ⟨2, ![a, 1]⟩ v h1) h2 (ix2 r k) = v (ix1 r) := by
  refine (broadcastTo_apply _ h2 (ix2 r k) (ix2 r ⟨0, Nat.one_pos⟩) ?_).trans (col_apply v h1 r _)
  intro c
  match c with
  | ⟨0, _⟩ =>
    show r.val = if a = 1 then 0 else r.val
    split_ifs with h
    · subst h; omega
    · rfl
  | ⟨1, _⟩ => rfl

/-- [a, b] cast to [a, b, 1] and broadcast to [a, b, c], read at (r, i, j): the operand at (r, i). -/
theorem outerLeft_apply {a b c : ℕ} (p : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ p h1) h2 (ix3 r i j) = p (ix2 r i) := by
  refine (broadcastTo_apply _ h2 (ix3 r i j) (ix3 r i ⟨0, Nat.one_pos⟩) ?_).trans
    (shapeCast_apply p h1 _ (ix2 r i) ?_)
  · intro d
    match d with
    | ⟨0, _⟩ =>
      show r.val = if a = 1 then 0 else r.val
      split_ifs with h
      · subst h; omega
      · rfl
    | ⟨1, _⟩ =>
      show i.val = if b = 1 then 0 else i.val
      split_ifs with h
      · subst h; omega
      · rfl
    | ⟨2, _⟩ => rfl
  · rw [Shape.rowMajor_val_two, Shape.rowMajor_val_three]
    show r.val * b + i.val = (r.val * b + i.val) * 1 + 0
    omega

/-- [a, c] cast to [a, 1, c] and broadcast to [a, b, c], read at (r, i, j): the operand at (r, j). -/
theorem outerRight_apply {a b c : ℕ} (q : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ q h1) h2 (ix3 r i j) = q (ix2 r j) := by
  refine (broadcastTo_apply _ h2 (ix3 r i j) (ix3 r ⟨0, Nat.one_pos⟩ j) ?_).trans
    (shapeCast_apply q h1 _ (ix2 r j) ?_)
  · intro d
    match d with
    | ⟨0, _⟩ =>
      show r.val = if a = 1 then 0 else r.val
      split_ifs with h
      · subst h; omega
      · rfl
    | ⟨1, _⟩ => rfl
    | ⟨2, _⟩ =>
      show j.val = if c = 1 then 0 else j.val
      split_ifs with h
      · subst h; omega
      · rfl
  · rw [Shape.rowMajor_val_two, Shape.rowMajor_val_three]
    show r.val * c + j.val = (r.val * 1 + 0) * c + j.val
    rw [Nat.mul_one, Nat.add_zero]

/-- Every index of a rank-1 shape of one element is the same index. -/
instance : Subsingleton (⟨1, ![1]⟩ : Shape).Idx :=
  ⟨fun x y => funext fun d => by
    match d with
    | ⟨0, _⟩ => exact Fin.ext (by have := (x 0).isLt; have := (y 0).isLt; simp at *; omega)⟩

/-- A one-element vector cast through one-element shapes and broadcast: every entry is the one element. -/
theorem splat_one_apply {s1 s2 s3 t : Shape} (v : (⟨1, ![1]⟩ : Shape).Idx → α)
    (h1 : (⟨1, ![1]⟩ : Shape).ShapeCasts s1) (h2 : s1.ShapeCasts s2) (h3 : s2.ShapeCasts s3) (h4 : s3.Broadcasts t)
    (j : t.Idx) :
    broadcastTo t (shapeCast s3 (shapeCast s2 (shapeCast s1 v h1) h2) h3) h4 j = v (ix1 0) := by
  unfold broadcastTo shapeCast
  exact congrArg v (Subsingleton.elim _ _)

/-! ## The index a reduction inserts -/

theorem lift_axis1 {a b : ℕ} (h : (⟨2, ![a, b]⟩ : Shape).Reduces [1] ⟨1, ![a]⟩) (r : Fin a)
    (k : Fin ((⟨2, ![a, b]⟩ : Shape).size 1)) : h.lift (ix1 r) k = ix2 r ⟨k.val, k.isLt⟩ := by
  funext c; apply Fin.ext
  fin_cases c <;> rfl

theorem lift_axis2 {a b c : ℕ} (h : (⟨3, ![a, b, c]⟩ : Shape).Reduces [2] ⟨2, ![a, b]⟩) (r : Fin a) (i : Fin b)
    (k : Fin ((⟨3, ![a, b, c]⟩ : Shape).size 2)) : h.lift (ix2 r i) k = ix3 r i ⟨k.val, k.isLt⟩ := by
  funext d; apply Fin.ext
  fin_cases d <;> rfl

theorem lift_axis0_col {a : ℕ} (h : (⟨2, ![a, 1]⟩ : Shape).Reduces [0] ⟨1, ![1]⟩) (z : Fin 1)
    (k : Fin ((⟨2, ![a, 1]⟩ : Shape).size 0)) : h.lift (ix1 z) k = ix2 ⟨k.val, k.isLt⟩ z := by
  funext d; apply Fin.ext
  fin_cases d <;> rfl

/-! ## The kernel's reductions at one element, at the ideal values -/

/-- A row's sum. -/
theorem rowSum_apply {a b : ℕ} (x : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_axis1 h r k)

/-- A row's maximum: the fold of `max` over the row from the accumulator's value. -/
theorem rowMax_apply {a b : ℕ} (x : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ x acc h hφ hacc (ix1 r)
      = (Finset.univ : Finset (Fin b)).fold max (Ideal.ofBits .f32 acc) (fun k => x (ix2 r k)) := by
  refine (Ideal.multiReduction_maximumf_single x acc h hφ hacc (ix1 r)).trans ?_
  exact congrArg (fun f => Finset.fold max (Ideal.ofBits .f32 acc) f (Finset.univ : Finset (Fin b)))
    (funext fun k => congrArg x (lift_axis1 h r k))

/-- The sum over the last axis of a rank-3 vector. -/
theorem lastSum_apply {a b c : ℕ} (x : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (r : Fin a) (i : Fin b) :
    multiReduction .add [2] ⟨2, ![a, b]⟩ x acc h hφ hacc (ix2 r i) = ∑ j : Fin c, x (ix3 r i j) := by
  refine (Ideal.multiReduction_add_single x acc h hφ hacc (ix2 r i)).trans ?_
  exact Finset.sum_congr rfl fun k _ => congrArg x (lift_axis2 h r i k)

/-- The sum of a column. -/
theorem colSum_apply {a : ℕ} (x : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (z : Fin 1) :
    multiReduction .add [0] ⟨1, ![1]⟩ x acc h hφ hacc (ix1 z) = ∑ r : Fin a, x (ix2 r z) := by
  refine (Ideal.multiReduction_add_single x acc h hφ hacc (ix1 z)).trans ?_
  exact Finset.sum_congr rfl fun k _ => congrArg x (lift_axis0_col h z k)

/-! ## The host's side -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An index of an [a, b, c] array drops to row `r`, the last two axes reduced, exactly when its first coordinate
    is `r`. -/
theorem drop_last_two_eq_iff {a b c : ℕ} (h : (⟨3, ![a, b, c]⟩ : Shape).ReducesTo [1, 2] ⟨1, ![a]⟩)
    (i : (⟨3, ![a, b, c]⟩ : Shape).Idx) (r : Fin a) : h.drop i = ix1 r ↔ i 0 = r := by
  constructor
  · intro e
    have e0 := congrArg Fin.val (congrFun e 0)
    exact Fin.ext e0
  · intro e
    funext d
    match d with
    | ⟨0, _⟩ => exact Fin.ext (congrArg Fin.val e)

/-- The sum over the indices that drop to row `r` is the double sum over the two reduced axes. -/
theorem sum_filter_drop_last_two {M : Type*} [AddCommMonoid M] {a b c : ℕ}
    (h : (⟨3, ![a, b, c]⟩ : Shape).ReducesTo [1, 2] ⟨1, ![a]⟩) (f : (⟨3, ![a, b, c]⟩ : Shape).Idx → M) (r : Fin a) :
    ∑ i ∈ Finset.univ.filter (fun i => h.drop i = ix1 r), f i = ∑ p : Fin b, ∑ q : Fin c, f (ix3 r p q) := by
  rw [← Finset.sum_product' (s := (Finset.univ : Finset (Fin b))) (t := (Finset.univ : Finset (Fin c)))
    (f := fun p q => f (ix3 r p q))]
  refine Finset.sum_nbij' (fun i => (i 1, i 2)) (fun p => ix3 r p.1 p.2) ?_ ?_ ?_ ?_ ?_
  · intro i _; exact Finset.mem_product.2 ⟨Finset.mem_univ _, Finset.mem_univ _⟩
  · intro p _; exact Finset.mem_filter.2 ⟨Finset.mem_univ _, (drop_last_two_eq_iff h _ r).2 rfl⟩
  · intro i hi
    have e := (drop_last_two_eq_iff h i r).1 (Finset.mem_filter.1 hi).2
    rw [← e]; exact (eq_ix3 i).symm
  · intro p _; rfl
  · intro i hi
    have e := (drop_last_two_eq_iff h i r).1 (Finset.mem_filter.1 hi).2
    rw [← e]; exact congrArg f (eq_ix3 i)

/-- The host's maximum over a row, from an initial value, is the fold of `max` over the row from it. -/
theorem hostRowMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  exact congrArg (fun f => Finset.fold max (init (Shape.Idx.first hu)) f (Finset.univ : Finset (Fin b)))
    (funext fun k => congrArg x (lift_axis1 h r k))

end Cert.Keepdims

end
-- ==== Proof.RefValue.lean ====
/-
  The reference, read in the vocabulary of rows. At row `r` its softmax stages are the row's maximum (taken from
  `-∞` and once more against `-∞`, which changes nothing), the exponentials less the maximum, their sum from zero and
  the quotient; its entropy stages are the row's terms `p · log (p + ε)`, scaled by `λ`, summed over the row, negated,
  summed over the rows and divided by the row count; the outer product's terms are summed over both of its axes at
  once. Its result is `referenceForm` of the two arrays.
-/
import proofs.«413792_j38972533244659_3_alg».proof.Proof.Gen.ReferenceIdeal.Read
import proofs.«413792_j38972533244659_3_alg».proof.Proof.Entropy
import proofs.«413792_j38972533244659_3_alg».proof.Proof.LibKeepdims

noncomputable section

open scoped BigOperators

namespace Cert.Gmi.Ref

open Cert.ReferenceIdeal Cert.ReferenceIdeal.Gen Cert.ReferenceIdeal.Read Idealize.ShloMosaic Idealize.ShloMosaic.ValueIdx
open Cert.Gmi Cert.Keepdims

/-! ## The index maps of the broadcasts and sums, at coordinates -/

private theorem e34 (r : Fin 4096) (k : Fin 256) : idx_main_v3 (idx_main_v4 (ix2 r k)) = ix1 r := by
  funext a; match a with | ⟨0, _⟩ => rfl
private theorem e89 (r : Fin 4096) (k : Fin 256) : idx_main_v8 (idx_main_v9 (ix2 r k)) = ix1 r := by
  funext a; match a with | ⟨0, _⟩ => rfl
private theorem e7 (r : Fin 4096) (k : Fin 256) : idx_main_v7 (ix1 r) k = ix2 r k := by
  funext a; match a with | ⟨0, _⟩ => rfl | ⟨1, _⟩ => rfl
private theorem e28 (r : Fin 4096) (k : Fin 256) : idx_main_v28 (ix1 r) k = ix2 r k := by
  funext a; match a with | ⟨0, _⟩ => rfl | ⟨1, _⟩ => rfl
private theorem e1415 (r : Fin 4096) (k : Fin 256) : idx_main_v14 (idx_main_v15 (ix2 r k)) = ix1 r := by
  funext a; match a with | ⟨0, _⟩ => rfl
private theorem e1920 (r : Fin 4096) (k : Fin 256) : idx_main_v19 (idx_main_v20 (ix2 r k)) = ix1 r := by
  funext a; match a with | ⟨0, _⟩ => rfl
private theorem e18 (r : Fin 4096) (k : Fin 256) : idx_main_v18 (ix1 r) k = ix2 r k := by
  funext a; match a with | ⟨0, _⟩ => rfl | ⟨1, _⟩ => rfl
private theorem e38 (r : Fin 4096) (k : Fin 256) : idx_main_v38 (ix1 r) k = ix2 r k := by
  funext a; match a with | ⟨0, _⟩ => rfl | ⟨1, _⟩ => rfl
private theorem e4244 (r : Fin 4096) (i j : Fin 256) : idx_main_v42 (idx_main_v44 (ix3 r i j)) = ix2 r i := by
  funext a; match a with | ⟨0, _⟩ => rfl | ⟨1, _⟩ => rfl
private theorem e4345 (r : Fin 4096) (i j : Fin 256) : idx_main_v43 (idx_main_v45 (ix3 r i j)) = ix2 r j := by
  funext a; match a with | ⟨0, _⟩ => rfl | ⟨1, _⟩ => rfl

/-- The zero the sums start from. -/
private theorem zero_add_ofBits (z : EReal) : Ideal.ofBits .f32 0x00000000#32 + z = z := by
  rw [Ideal.ofBits_zero_f32, zero_add]

/-! ## The first array's softmax -/

theorem rowMax_x (x : Logits) (r : Fin 4096) : val_main_v2 (F := Ideal) x (ix1 r) = rmax (rowOf x r) := by
  rw [val_main_v2_apply, val_main_v1_apply, val_main_cst_0_apply]
  unfold val_main_v0
  rw [hostRowMax_apply x _ reducesTo_S4096x256_S4096_d1 (by decide) h_S_ r, val_main_cst_apply]
  show max (Ideal.ofBits .f32 0xFF800000#32) (Finset.fold max (Ideal.ofBits .f32 0xFF800000#32) _ _) = _
  rw [negInf_eq, max_eq_right bot_le]
  rfl

theorem expd_x (x : Logits) (r : Fin 4096) (k : Fin 256) :
    val_main_v6 (F := Ideal) x (ix2 r k) = expd (rowOf x r) k := by
  rw [val_main_v6_apply, val_main_v5_apply, val_main_v4_apply, val_main_v3_apply, e34, rowMax_x]
  rfl

theorem sum_x (x : Logits) (r : Fin 4096) : val_main_v7 (F := Ideal) x (ix1 r) = ∑ k, expd (rowOf x r) k := by
  rw [val_main_v7_apply, val_main_cst_1_apply]
  show Ideal.ofBits .f32 0x00000000#32 + _ = _
  rw [zero_add_ofBits]
  exact Finset.sum_congr rfl fun k _ => by rw [e7, expd_x]

theorem sm_x (x : Logits) (r : Fin 4096) (k : Fin 256) : val_main_v10 (F := Ideal) x (ix2 r k) = sm (rowOf x r) k := by
  rw [val_main_v10_apply, val_main_v9_apply, val_main_v8_apply, e89, sum_x, expd_x]
  rfl

/-! ## The second array's softmax -/

theorem rowMax_y (y : Logits) (r : Fin 4096) : val_main_v13 (F := Ideal) y (ix1 r) = rmax (rowOf y r) := by
  rw [val_main_v13_apply, val_main_v12_apply, val_main_cst_3_apply]
  unfold val_main_v11
  rw [hostRowMax_apply y _ reducesTo_S4096x256_S4096_d1 (by decide) h_S_ r, val_main_cst_2_apply]
  show max (Ideal.ofBits .f32 0xFF800000#32) (Finset.fold max (Ideal.ofBits .f32 0xFF800000#32) _ _) = _
  rw [negInf_eq, max_eq_right bot_le]
  rfl

theorem expd_y (y : Logits) (r : Fin 4096) (k : Fin 256) :
    val_main_v17 (F := Ideal) y (ix2 r k) = expd (rowOf y r) k := by
  rw [val_main_v17_apply, val_main_v16_apply, val_main_v15_apply, val_main_v14_apply, e1415, rowMax_y]
  rfl

theorem sum_y (y : Logits) (r : Fin 4096) : val_main_v18 (F := Ideal) y (ix1 r) = ∑ k, expd (rowOf y r) k := by
  rw [val_main_v18_apply, val_main_cst_4_apply]
  show Ideal.ofBits .f32 0x00000000#32 + _ = _
  rw [zero_add_ofBits]
  exact Finset.sum_congr rfl fun k _ => by rw [e18, expd_y]

theorem sm_y (y : Logits) (r : Fin 4096) (k : Fin 256) : val_main_v21 (F := Ideal) y (ix2 r k) = sm (rowOf y r) k := by
  rw [val_main_v21_apply, val_main_v20_apply, val_main_v19_apply, e1920, sum_y, expd_y]
  rfl

/-! ## The scaled entropy terms and their means -/

theorem term_x (x : Logits) (r : Fin 4096) (k : Fin 256) :
    val_main_v27 (F := Ideal) x (ix2 r k) = plogp (sm (rowOf x r) k) * lam := by
  rw [val_main_v27_apply, val_main_v26_apply, val_main_cst_6_apply, val_main_v25_apply, val_main_v24_apply,
    val_main_v23_apply, val_main_v22_apply, val_main_cst_5_apply, sm_x]
  rfl

theorem term_y (y : Logits) (r : Fin 4096) (k : Fin 256) :
    val_main_v37 (F := Ideal) y (ix2 r k) = plogp (sm (rowOf y r) k) * lam := by
  rw [val_main_v37_apply, val_main_v36_apply, val_main_cst_11_apply, val_main_v35_apply, val_main_v34_apply,
    val_main_v33_apply, val_main_v32_apply, val_main_cst_10_apply, sm_y]
  rfl

theorem mean_x (x : Logits) (i : S_.Idx) :
    val_main_v31 (F := Ideal) x i = Ideal.div (∑ r : Fin 4096, -(∑ k, plogp (sm (rowOf x r) k) * lam)) cnt := by
  rw [val_main_v31_apply, val_main_cst_9_apply, val_main_v30_apply, val_main_cst_8_apply]
  show Ideal.div (Ideal.ofBits .f32 0x00000000#32 + _) cnt = _
  rw [zero_add_ofBits, sum_idx1]
  refine congrArg (Ideal.div · cnt) (Finset.sum_congr rfl fun r _ => ?_)
  rw [val_main_v29_apply, val_main_v28_apply, val_main_cst_7_apply]
  show -(Ideal.ofBits .f32 0x00000000#32 + _) = _
  rw [zero_add_ofBits]
  exact congrArg Neg.neg (Finset.sum_congr rfl fun k _ => by rw [e28, term_x])

theorem mean_y (y : Logits) (i : S_.Idx) :
    val_main_v41 (F := Ideal) y i = Ideal.div (∑ r : Fin 4096, -(∑ k, plogp (sm (rowOf y r) k) * lam)) cnt := by
  rw [val_main_v41_apply, val_main_cst_14_apply, val_main_v40_apply, val_main_cst_13_apply]
  show Ideal.div (Ideal.ofBits .f32 0x00000000#32 + _) cnt = _
  rw [zero_add_ofBits, sum_idx1]
  refine congrArg (Ideal.div · cnt) (Finset.sum_congr rfl fun r _ => ?_)
  rw [val_main_v39_apply, val_main_v38_apply, val_main_cst_12_apply]
  show -(Ideal.ofBits .f32 0x00000000#32 + _) = _
  rw [zero_add_ofBits]
  exact congrArg Neg.neg (Finset.sum_congr rfl fun k _ => by rw [e38, term_y])

/-! ## The outer product -/

theorem term_xy (x y : Logits) (r : Fin 4096) (i j : Fin 256) :
    val_main_v52 (F := Ideal) x y (ix3 r i j) = plogp (sm (rowOf x r) i * sm (rowOf y r) j) * lam := by
  rw [val_main_v52_apply, val_main_v51_apply, val_main_cst_16_apply, val_main_v50_apply, val_main_v49_apply,
    val_main_v48_apply, val_main_v47_apply, val_main_cst_15_apply, val_main_v46_apply, val_main_v44_apply,
    val_main_v42_apply, e4244, val_main_v45_apply, val_main_v43_apply, e4345, sm_x, sm_y]
  rfl

theorem sum_xy (x y : Logits) (r : Fin 4096) :
    val_main_v53 (F := Ideal) x y (ix1 r) = ∑ i, ∑ j, plogp (sm (rowOf x r) i * sm (rowOf y r) j) * lam := by
  unfold val_main_v53
  simp only [Host.reduceAdd, Ideal.hostReduceAdd_def]
  unfold Ideal.hostReduceAdd
  rw [val_main_cst_17_apply]
  show Ideal.ofBits .f32 0x00000000#32 + _ = _
  rw [zero_add_ofBits, sum_filter_drop_last_two reducesTo_S4096x256x256_S4096_d1_2 _ r]
  exact Finset.sum_congr rfl fun i _ => Finset.sum_congr rfl fun j _ => term_xy x y r i j

theorem mean_xy (x y : Logits) (i : S_.Idx) :
    val_main_v55 (F := Ideal) x y i
      = Ideal.div (∑ r : Fin 4096, ∑ i, ∑ j, plogp (sm (rowOf x r) i * sm (rowOf y r) j) * lam) cnt := by
  rw [val_main_v55_apply, val_main_cst_19_apply, val_main_v54_apply, val_main_cst_18_apply]
  show Ideal.div (Ideal.ofBits .f32 0x00000000#32 + _) cnt = _
  rw [zero_add_ofBits, sum_idx1]
  exact congrArg (Ideal.div · cnt) (Finset.sum_congr rfl fun r _ => sum_xy x y r)

/-! ## The reference's result -/

theorem result_eq (x y : Logits) (i : S_.Idx) : val_main_v58 (F := Ideal) x y i = referenceForm x y := by
  rw [val_main_v58_apply, val_main_v57_apply, val_main_v56_apply, mean_x, mean_y, mean_xy]
  rfl

end Cert.Gmi.Ref

end
-- ==== Proof.KernelBlock.lean ====
/-
  What the kernel's body computes from one tile: two [32, 256] blocks of logits. Per row it forms the two softmaxes,
  the rows' entropy sums and the entropy sum of the rows' outer product, scales their combination, and adds the 32
  rows' values up; the one number is stored in every entry of the tile's [1, 8, 128] output block.
-/
import proofs.«413792_j38972533244659_3_alg».proof.Proof.Gen.KernelIdeal.Skeleton
import proofs.«413792_j38972533244659_3_alg».proof.Proof.Entropy
import proofs.«413792_j38972533244659_3_alg».proof.Proof.LibKeepdims

noncomputable section

open scoped BigOperators

namespace Cert.Gmi.Ker

open Cert.KernelIdeal Cert.KernelIdeal.Gen Idealize.ShloMosaic Idealize.ShloMosaic.ValueIdx Cert.Gmi Cert.Keepdims

/-- Row `r` of a block of 32 rows. -/
def brow (x : FVec Ideal S32x256 .f32) (r : Fin 32) : Fin 256 → EReal := fun k => x (ix2 r k)

/-! ## The body's reductions at its own shapes

The general lemmas at the literal extents, with the accumulator's word fixed and its side condition stated as the
equation of the two words that the printed term carries. -/

theorem rowSum32 (x : FVec Ideal S32x256 .f32) (h : S32x256.Reduces [1] S32) (hφ : FKind.Formats .f32)
    (hacc : (0x00000000#32 : BitVec 32) = 0x00000000#32) (r : Fin 32) :
    multiReduction .add [1] S32 x 0x00000000#32 h hφ hacc (ix1 r) = ∑ k : Fin 256, x (ix2 r k) :=
  rowSum_apply x 0x00000000#32 h hφ hacc r

theorem rowMax32 (x : FVec Ideal S32x256 .f32) (h : S32x256.Reduces [1] S32) (hφ : FKind.Formats .f32)
    (hacc : (0xFF800000#32 : BitVec 32) = 0xFF800000#32) (r : Fin 32) :
    multiReduction .maximumf [1] S32 x 0xFF800000#32 h hφ hacc (ix1 r)
      = (Finset.univ : Finset (Fin 256)).fold max (Ideal.ofBits .f32 0xFF800000#32) (fun k => x (ix2 r k)) :=
  rowMax_apply x 0xFF800000#32 h hφ hacc r

theorem lastSum32 (x : FVec Ideal S32x256x256 .f32) (h : S32x256x256.Reduces [2] S32x256) (hφ : FKind.Formats .f32)
    (hacc : (0x00000000#32 : BitVec 32) = 0x00000000#32) (r : Fin 32) (i : Fin 256) :
    multiReduction .add [2] S32x256 x 0x00000000#32 h hφ hacc (ix2 r i) = ∑ j : Fin 256, x (ix3 r i j) :=
  lastSum_apply x 0x00000000#32 h hφ hacc r i

theorem colSum32 (x : FVec Ideal S32x1 .f32) (h : S32x1.Reduces [0] S1) (hφ : FKind.Formats .f32)
    (hacc : (0x00000000#32 : BitVec 32) = 0x00000000#32) (z : Fin 1) :
    multiReduction .add [0] S1 x 0x00000000#32 h hφ hacc (ix1 z) = ∑ r : Fin 32, x (ix2 r z) :=
  colSum_apply x 0x00000000#32 h hφ hacc z

/-! ## The payloads -/

/-- The first block's softmax, at (r, k). -/
theorem softmax0_apply (x : FVec Ideal S32x256 .f32) (r : Fin 32) (k : Fin 256) :
    k0_pay2 (F := Ideal) x (ix2 r k) = sm (brow x r) k := by
  unfold k0_pay2
  simp only [divf, exp, subf, keepdims_apply]
  rw [rowSum32, rowMax32]
  simp only [exp, subf, keepdims_apply]
  rw [rowMax32, negInf_eq]
  rfl

/-- The second block's softmax, at (r, k). -/
theorem softmax1_apply (x : FVec Ideal S32x256 .f32) (r : Fin 32) (k : Fin 256) :
    k0_pay3 (F := Ideal) x (ix2 r k) = sm (brow x r) k := by
  unfold k0_pay3
  simp only [divf, exp, subf, keepdims_apply]
  rw [rowSum32, rowMax32]
  simp only [exp, subf, keepdims_apply]
  rw [rowMax32, negInf_eq]
  rfl

/-- The first block's entropy sum of row `r`. -/
theorem entropy0_apply (x : FVec Ideal S32x256 .f32) (r : Fin 32) (z : Fin 1) :
    k0_pay4 (F := Ideal) x (ix2 r z) = ∑ k, plogp (sm (brow x r) k) := by
  unfold k0_pay4
  simp only [col_apply]
  rw [rowSum32]
  simp only [mulf, log, addf, broadcast, softmax0_apply]
  rfl

/-- The second block's entropy sum of row `r`. -/
theorem entropy1_apply (x : FVec Ideal S32x256 .f32) (r : Fin 32) (z : Fin 1) :
    k0_pay5 (F := Ideal) x (ix2 r z) = ∑ k, plogp (sm (brow x r) k) := by
  unfold k0_pay5
  simp only [col_apply]
  rw [rowSum32]
  simp only [mulf, log, addf, broadcast, softmax1_apply]
  rfl

/-- The entropy sum of the outer product of the two blocks' rows `r`: the sum over the second row's entries first, then
    over the first row's. -/
theorem outer_apply (x0 x1 : FVec Ideal S32x256 .f32) (r : Fin 32) (z : Fin 1) :
    k0_pay6 (F := Ideal) x0 x1 (ix2 r z) = ∑ i, ∑ j, plogp (sm (brow x0 r) i * sm (brow x1 r) j) := by
  unfold k0_pay6
  simp only [col_apply]
  rw [rowSum32]
  refine Finset.sum_congr rfl fun i _ => ?_
  rw [lastSum32]
  simp only [mulf, log, addf, broadcast, outerLeft_apply, outerRight_apply, softmax0_apply, softmax1_apply]
  rfl

/-- The tile's value from the three columns of row sums: the scaled combination, summed over the rows, at every entry of
    the output block. -/
theorem tile_apply (v25 v31 v43 : FVec Ideal S32x1 .f32) (j : S1x8x128.Idx) :
    k0_pay1 (F := Ideal) v25 v31 v43 j
      = ∑ r : Fin 32, lam * ((v43 (ix2 r 0) - v25 (ix2 r 0)) - v31 (ix2 r 0)) := by
  unfold k0_pay1
  simp only [splat_one_apply]
  rw [colSum32]
  simp only [mulf, subf, broadcast]
  rfl

/-- The tile's stored block, from the two blocks of logits. -/
theorem block_apply (x0 x1 : FVec Ideal S32x256 .f32) (j : S1x8x128.Idx) :
    k0_pay1 (F := Ideal) (k0_pay4 x0) (k0_pay5 x1) (k0_pay6 x0 x1) j
      = ∑ r : Fin 32, lam * (((∑ i, ∑ j, plogp (sm (brow x0 r) i * sm (brow x1 r) j))
          - ∑ k, plogp (sm (brow x0 r) k)) - ∑ k, plogp (sm (brow x1 r) k)) := by
  rw [tile_apply]
  simp only [entropy0_apply, entropy1_apply, outer_apply]

end Cert.Gmi.Ker

end
-- ==== Proof.KernelValue.lean ====
/-
  From the tiles to the kernel's result. Grid point `t` stages rows 32 t … 32 t + 31 of both arrays and writes its
  tile's sum into block `t` of the [128, 8, 128] output, so that array ends holding, at (t, ·, ·), tile `t`'s sum:
  every index lies in the block of the point its first coordinate names. The lines after the call read entry
  (t, 0, 0) of each block, add the 128 numbers up from zero and divide by the row count: `kernelForm` of the arrays.
-/
import proofs.«413792_j38972533244659_3_alg».proof.Proof.Gen.KernelIdeal.Frame
import proofs.«413792_j38972533244659_3_alg».proof.Proof.KernelBlock
import Idealize.ShloMosaic.Lib.Pipeline.Value
import Idealize.ShloMosaic.Lib.StableHlo.Run

set_option maxRecDepth 16384

noncomputable section

open scoped BigOperators

namespace Cert.Gmi.Ker

open Cert.KernelIdeal Cert.KernelIdeal.Gen Idealize.ShloMosaic Idealize.ShloMosaic.TcCoe Idealize.ShloMosaic.ValueIdx
open Idealize.SL.Sem Cert.Gmi Cert.Keepdims
open Idealize.ShloMosaic.Pipeline (Dat)

variable (m : (ℓ : Loc nD τ sig) → Buf (Elt Ideal) ℓ) (ρ : Dev nD → PrngReg)

/-- The two arrays as the call finds them, and a point's blocks of them, at their literal types. -/
abbrev xarr (c : Dev nD) : Logits := V m c main_arg0
abbrev yarr (c : Dev nD) : Logits := V m c main_arg1
abbrev xblk (c : Dev nD) (t : Fin cfg0.N) : FVec Ideal S32x256 .f32 := iblk m c 0 t
abbrev yblk (c : Dev nD) (t : Fin cfg0.N) : FVec Ideal S32x256 .f32 := iblk m c 1 t

/-- A grid point as a tile number. -/
def tile (t : Fin cfg0.N) : Fin 128 := t.cast N_0

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: point `t` reads block row `t` of both arrays and writes block `t`
    of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Row `r` of point `t`'s block of the first array is row 32 t + r of the array. -/
theorem brow_xblk (c : Dev nD) (t : Fin cfg0.N) (r : Fin 32) :
    brow (xblk m c t) r = rowOf (xarr m c) (row (tile t) r) := by
  obtain ⟨e0, e1, -⟩ := idx_facts t
  funext k
  show V m c main_arg0 (((cfg0.win 0).blk t).view.emb (ix2 r k)) = V m c main_arg0 (ix2 (row (tile t) r) k)
  refine congrArg (V m c main_arg0) (funext fun a => Fin.ext ?_)
  match a with
  | ⟨0, _⟩ => show win0_0.index t (0 : Fin 2) * 32 + 1 * r.val = t.val * 32 + r.val; omega
  | ⟨1, _⟩ => show win0_0.index t (1 : Fin 2) * 256 + 1 * k.val = k.val; omega

/-- The same for the second array. -/
theorem brow_yblk (c : Dev nD) (t : Fin cfg0.N) (r : Fin 32) :
    brow (yblk m c t) r = rowOf (yarr m c) (row (tile t) r) := by
  obtain ⟨-, -, e2, e3, -⟩ := idx_facts t
  funext k
  show V m c main_arg1 (((cfg0.win 1).blk t).view.emb (ix2 r k)) = V m c main_arg1 (ix2 (row (tile t) r) k)
  refine congrArg (V m c main_arg1) (funext fun a => Fin.ext ?_)
  match a with
  | ⟨0, _⟩ => show win0_1.index t (0 : Fin 2) * 32 + 1 * r.val = t.val * 32 + r.val; omega
  | ⟨1, _⟩ => show win0_1.index t (1 : Fin 2) * 256 + 1 * k.val = k.val; omega

/-- What the output array ends holding: at (t, ·, ·) tile `t`'s sum. -/
def outArr (x y : Logits) : S128x8x128.Idx → EReal := fun i => tileSum x y (i 0)

/-- What point `t` writes back is block `t` of that array. -/
theorem flushed_eq (c : Dev nD) (t : Fin cfg0.N) :
    (dats m 0 c).flushed 2 t = ((cfg0.win 2).blk t).view.read (Elt Ideal) (outArr (xarr m c) (yarr m c)) := by
  show (cfg0.win 2).cut (grid0.coords t) ((dats m 0 c).after 2 t) = _
  rw [after0_2]
  unfold out0_2
  rw [View.canon_unit_zero hz3]
  simp only [View.ld_unit_zero (S := S32x256) hz2]
  obtain ⟨-, -, -, -, e4, -, -⟩ := idx_facts t
  funext j
  show k0_pay1 (F := Ideal) (k0_pay4 (xblk m c t)) (k0_pay5 (yblk m c t)) (k0_pay6 (xblk m c t) (yblk m c t)) j
      = tileSum (xarr m c) (yarr m c) ((((cfg0.win 2).blk t).view.emb j) 0)
  refine (block_apply (xblk m c t) (yblk m c t) j).trans ?_
  have ht : (((cfg0.win 2).blk t).view.emb j) 0 = tile t := Fin.ext (by
    show win0_2.index t (0 : Fin 3) * 1 + 1 * (j 0).val = t.val
    have hj : (j 0).val < 1 := (j 0).isLt
    omega)
  rw [ht]
  unfold tileSum
  exact Finset.sum_congr rfl fun r _ => by rw [brow_xblk, brow_yblk]

/-- An index of the output is in point `t`'s block iff each coordinate is in the block's range on its axis. -/
theorem mem_blk (t : Fin cfg0.N) (i : S128x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the output is in the block of the point its first coordinate names. -/
theorem cover (i : S128x8x128.Idx) :
    ∃ t : Fin cfg0.N, (cfg0.win 2).flush t = true ∧ i ∈ ((cfg0.win 2).blk t).view.set := by
  have hi0 : (i 0).val < 128 := (i 0).isLt
  have hi1 : (i 1).val < 8 := (i 1).isLt
  have hi2 : (i 2).val < 128 := (i 2).isLt
  obtain ⟨t, ht⟩ : ∃ t : Fin cfg0.N, t.val = (i 0).val := ⟨(⟨(i 0).val, hi0⟩ : Fin 128).cast N_0.symm, rfl⟩
  obtain ⟨-, -, -, -, e4, e5, e6⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- The output array after the run. -/
theorem final (c : Dev nD) : (dats m 0 c).arrAt 2 cfg0.N = outArr (xarr m c) (yarr m c) :=
  (dats m 0 c).arrAt_eq_of_cover 2 (outArr (xarr m c) (yarr m c)) (fun t _ => flushed_eq m c t) cover

/-- The result buffer is an unscoped buffer that is no window's array: the frame run's post speaks of it. -/
theorem v4_rest : main_v4 ∈ Pipeline.restRefs sig cfg0.spec :=
  Pipeline.mem_restRefs_of main_v4 rfl (by decide)

/-- What the lines after the call compute: entry (t, 0, 0) of each block, summed from zero over the 128 tiles and divided by
    the row count. -/
theorem tail_value (c : Dev nD) :
    Pipeline.afterTail₀ cfgs (dats m) 0 (V0 m) [hostOps1] c main_v4 = fun _ => kernelForm (xarr m c) (yarr m c) := by
  have e : Pipeline.withArrays (cfgs 0).spec c (V0 m c) (fun w => (dats m 0 c).arrAt w (cfgs 0).N) (Proc.devRef .tc main_v0)
      = outArr (xarr m c) (yarr m c) :=
    (Pipeline.withArrays_arr spec0 launch0.win.arr_inj c _ _ 2).trans (final m c)
  unfold Pipeline.afterTail₀
  show StableHlo.after hostOps1 _ (Proc.devRef .tc main_v4) = _
  after_results
  rw [e]
  funext i
  show Ideal.div (Ideal.hostReduceAdd reducesTo_S128_S_d0
      (fun i : S128.Idx => shapeCast S128 (extractStridedSlice S128x1x1 ![0, 0, 0] (outArr (xarr m c) (yarr m c))
        slices_S128x8x128_S128x1x1_0_0_0) shapeCasts_S128x1x1_S128 i) (Ideal.ofBits .f32 0x00000000#32) i) cnt = _
  rw [Ideal.hostReduceAdd_total reducesTo_S128_S_d0 (fun b => b.elim0), Ideal.ofBits_zero_f32, zero_add, sum_idx1]
  unfold kernelForm
  refine congrArg (Ideal.div · cnt) (Finset.sum_congr rfl fun t _ => ?_)
  refine (shapeCast_apply _ shapeCasts_S128x1x1_S128 (ix1 t) (ix3 t 0 0) ?_).trans
    ((extractStridedSlice_apply _ _ slices_S128x8x128_S128x1x1_0_0_0 (ix3 t 0 0) (ix3 t 0 0) ?_).trans rfl)
  · rw [Shape.rowMajor_val_three, Shape.rowMajor_val_one]
    show (t.val * 1 + 0) * 1 + 0 = t.val
    omega
  · intro a
    match a with
    | ⟨0, _⟩ => show t.val = 0 + t.val; omega
    | ⟨1, _⟩ => rfl
    | ⟨2, _⟩ => rfl

/-! ## The kernel's run -/

/-- Every weakly fair execution of the kernel's @main terminates with the result at `kernelForm` of the two argument
    arrays, the arrays unchanged. -/
theorem run : θ_run defs (onTc (τ := τ) (main (F := Ideal))) ⟨m, fun _ => 0, ρ⟩ fun r => ∀ c : Dev nD,
      r.2.mem ((c.tc : Thread nD τ).loc main_v4)
        = (fun _ => kernelForm (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v4 v4_rest).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Gmi.Ker

end
-- ==== Proof.lean ====
/-
  The kernel computes, for two [4096, 256] arrays of logits, the mean over the rows of H(x) + H(y) − H(x ⊗ y) in bits:
  H of a row is the entropy sum −λ Σ_j p_j log (p_j + ε) of its softmax `p`, and H(x ⊗ y) that of the outer product of the
  two rows' softmaxes. The kernel works tile by tile (32 rows a grid point): per row it takes the three unscaled sums,
  combines them as λ · (S_xy − S_x − S_y), adds the tile's 32 values up and stores the number; the lines after the call
  add the 128 tiles' numbers and divide by 4096. The reference scales every term by λ, sums each row, negates, takes
  each of the three means over all rows and combines the means.

  On the extended reals the two arrangements need not agree (multiplication does not distribute over sums at the
  infinities), so the precondition is used: every input entry is a real number. Then every softmax entry is a
  nonnegative real, every entropy term a real, and on the reals the scale and the division by the row count distribute
  over the sums: Proof/Entropy.lean. That under the precondition the entries are real is Proof/Finite.lean; that the
  reference's result is the one arrangement is Proof/RefValue.lean; that the kernel's body, its output array and the lines
  after the call give the other is Proof/KernelBlock.lean and Proof/KernelValue.lean, over the reading lemmas of
  Proof/LibKeepdims.lean. The ideal pass rewrote nothing, so there is nothing to preserve.
-/
import proofs.«413792_j38972533244659_3_alg».proof.Defs
import proofs.«413792_j38972533244659_3_alg».proof.Proof.Gen.Kernel
import proofs.«413792_j38972533244659_3_alg».proof.Proof.Gen.Kernel.Skeleton
import proofs.«413792_j38972533244659_3_alg».proof.Proof.Gen.Kernel.Launch
import proofs.«413792_j38972533244659_3_alg».proof.Proof.Gen.Kernel.Points
import proofs.«413792_j38972533244659_3_alg».proof.Proof.Gen.Kernel.Frame
import proofs.«413792_j38972533244659_3_alg».proof.Proof.Gen.KernelIdeal
import proofs.«413792_j38972533244659_3_alg».proof.Proof.Gen.KernelIdeal.Skeleton
import proofs.«413792_j38972533244659_3_alg».proof.Proof.Gen.KernelIdeal.Launch
import proofs.«413792_j38972533244659_3_alg».proof.Proof.Gen.KernelIdeal.Points
import proofs.«413792_j38972533244659_3_alg».proof.Proof.Gen.KernelIdeal.Frame
import proofs.«413792_j38972533244659_3_alg».proof.Proof.Gen.ReferenceIdeal
import proofs.«413792_j38972533244659_3_alg».proof.Proof.Gen.Pre_finite_inputs
import proofs.«413792_j38972533244659_3_alg».proof.Proof.Gen.ReferenceIdeal.Run
import proofs.«413792_j38972533244659_3_alg».proof.Proof.Gen.ReferenceIdeal.Read
import proofs.«413792_j38972533244659_3_alg».proof.Proof.Finite
import proofs.«413792_j38972533244659_3_alg».proof.Proof.RefValue
import proofs.«413792_j38972533244659_3_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the two arrays, under the precondition, both programs end at one number: the kernel at its
    arrangement of the sum, the reference at its own, equal because the arrays hold reals. -/
theorem algebraic : Cert.algebraic_KernelIdeal_ReferenceIdeal := by
  intro m ρ m' ρ' hpre hagree
  refine ⟨_, Cert.Gmi.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2]
  funext i
  obtain ⟨hx, hy⟩ := Cert.Gmi.real_of_pre _ _ (hpre c)
  exact (Cert.Gmi.Ref.result_eq _ _ i).trans (Cert.Gmi.kernelForm_eq_referenceForm _ _ hx hy).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
